-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S1024 : Shape := ⟨1, ![1024]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S131072x1024 .f32) (main_arg1 : FVec F S1024 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S131072x1024 : Shape := ⟨2, ![131072, 1024]⟩
abbrev S1024 : Shape := ⟨1, ![1024]⟩
abbrev S1x1024 : Shape := ⟨2, ![1, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S131072x1024, .f32⟩
  | .hbm, ⟨1, _⟩ => ⟨S1024, .f32⟩
  | .hbm, ⟨2, _⟩ => ⟨S1x1024, .f32⟩
  | .hbm, ⟨3, _⟩ => ⟨S131072x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .f32⟩
  | .local _ .vmem, ⟨4, _⟩ => ⟨S2048x1024, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S131072x1024.size a
  hwx0_2 : ∀ i : grid0.Coords, EltTy.bits .f32 = 32 ∨ (Rect.block (s := S131072x1024) S2048x1024.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S1024 : Shape := ⟨1, ![1024]⟩
abbrev S1x1024 : Shape := ⟨2, ![1, 1024]⟩

abbrev nBuf : Space → Nat
  | .hbm => 5
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S1024, .f32⟩
  | .hbm, ⟨2, _⟩ => ⟨S1x1024, .f32⟩
  | .hbm, ⟨3, _⟩ => ⟨S131072x1024, .f32⟩
  | .hbm, ⟨4, _⟩ => ⟨S131072x1024, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)

variable [Facts₀]

class Facts : Prop extends Facts₀ where

variable [Facts]
-- ==== Proof.ColumnScale.lean ====
/-
  Per-channel scaling of a matrix: every entry of a 131072 x 1024 matrix is multiplied by the weight of its column,
  `out[r, k] = x[r, k] * w[k]` (the product with the diagonal matrix of `w`). This file states that result as ONE function
  of the two argument arrays, entry by entry, over the literal shapes, for any interpretation of the float operations:
  nothing here depends on which arithmetic the product is read in, because both programs apply the same single
  multiplication to the same two entries.
-/
import Idealize.ShloMosaic.Lib.ValueIdx

noncomputable section

namespace Cert.ColumnScale

open Idealize.ShloMosaic Idealize.ShloMosaic.ValueIdx

variable {F : FTy → Type} [FloatOps F]

/-- The matrix's shape: 131072 rows of 1024 channels. -/
abbrev Mat : Shape := ⟨2, ![131072, 1024]⟩
/-- The weight vector's shape: one weight per channel. -/
abbrev Chan : Shape := ⟨1, ![1024]⟩
/-- The weight vector laid out as a single row. -/
abbrev Row : Shape := ⟨2, ![1, 1024]⟩

/-- The channel of a matrix entry, as an index of the weight vector: the entry's column. -/
abbrev chan (i : Mat.Idx) : Chan.Idx := ix1 (⟨(i 1).val, (i 1).isLt⟩ : Fin 1024)

/-- The channel of an entry of the one-row layout. -/
abbrev rowChan (j : Row.Idx) : Chan.Idx := ix1 (⟨(j 1).val, (j 1).isLt⟩ : Fin 1024)

/-- The scaled matrix: entry `i` of `x` times the weight of `i`'s channel. -/
def scaled (x : Mat.Idx → Elt F .f32) (w : Chan.Idx → Elt F .f32) : Mat.Idx → Elt F .f32 :=
  fun i => FloatOps.mulf (x i) (w (chan i))

theorem scaled_apply (x : Mat.Idx → Elt F .f32) (w : Chan.Idx → Elt F .f32) (i : Mat.Idx) :
    scaled x w i = FloatOps.mulf (x i) (w (chan i)) := rfl

end Cert.ColumnScale

end
-- ==== Proof.KernelScaled.lean ====
/-
  The kernel walks the matrix in 64 bands of 2048 rows. Before the bands start, the weight vector is laid out as a single
  row of 1024 entries; every band sees that same row. At a band the body multiplies each entry of the band by the row's
  entry in the same column, and the band is written back to the same rows of the result. So band `t` of the result is
  band `t` of the per-channel scaling of `x` by `w`; the 64 bands tile the 131072 rows, hence the whole result is the
  scaled matrix.
-/
import proofs.«419298_j73469710566058_3_alg».proof.Proof.Gen.KernelIdeal.Value
import proofs.«419298_j73469710566058_3_alg».proof.Proof.ColumnScale
import Idealize.ShloMosaic.Lib.Pipeline.Value
import Idealize.ShloMosaic.Lib.StableHlo.Run

noncomputable section

namespace Cert.KernelIdeal.Scaled

open Cert.KernelIdeal Cert.KernelIdeal.Gen Cert.ColumnScale
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The weight vector as a row -/

/-- When the bands start, the one-row buffer holds the weight vector re-laid as a row. -/
theorem weight_row (c : Dev nD) :
    (V m c main_call0_v0 : S1x1024.Idx → Elt F .f32)
      = shapeCast S1x1024 (m ((c : Thread nD τ).loc main_arg1)) shapeCasts_S1024_S1x1024 := by
  dsimp only [V, hostOps0]
  after_results
  rfl

/-- Entry `j` of that row is the weight of `j`'s column: a row of 1024 entries and a vector of 1024 entries list their
    entries in the same order. -/
theorem weight_row_apply (c : Dev nD) (j : S1x1024.Idx) :
    V m c main_call0_v0 j = m ((c : Thread nD τ).loc main_arg1) (rowChan j) := by
  have h0 : (j 0).val < 1 := (j 0).isLt
  rw [weight_row]
  exact shapeCast_apply _ _ j (rowChan j) (by
    rw [Shape.rowMajor_val_two, Shape.rowMajor_val_one]
    show (j 1).val = (j 0).val * 1024 + (j 1).val
    omega)

/-! ## One band -/

theorem origin : (![0, 0] : Fin 2 → Nat) = fun _ => 0 := funext fun a => by fin_cases a <;> rfl

/-- What the body leaves in a band's buffer, entry by entry: the band's entry times the row's entry in the same column
    (the row has a single line, so the row coordinate read is 0 whatever the band's row is). -/
theorem band_entry (x0 : Vec F S2048x1024 .f32) (x1 : Vec F S1x1024 .f32) (y : S2048x1024.Idx) :
    out0_2 x0 x1 y = FloatOps.mulf (x0 y) (x1 (Value.ix2_1 y)) := by
  unfold out0_2
  rw [View.ld_unit_zero (S := S2048x1024) origin, View.ld_unit_zero (S := S1x1024) origin, Value.canon2_eq]
  show FloatOps.mulf (x0 (Value.ix2_0 y)) (x1 (Value.ix2_1 y)) = _
  have e : Value.ix2_0 y = y := by
    funext a
    match a with
    | ⟨0, _⟩ => rfl
    | ⟨1, _⟩ => rfl
  rw [e]

theorem band_value (x0 : Vec F S2048x1024 .f32) (x1 : Vec F S1x1024 .f32) :
    out0_2 x0 x1 = fun y => FloatOps.mulf (x0 y) (x1 (Value.ix2_1 y)) :=
  funext (band_entry x0 x1)

/-- Where the bands sit: band `t` of `x` and band `t` of the result are the same rows, all 1024 columns; the weight row
    is always its one block. -/
theorem band_positions : ∀ t : Fin cfg0.N, win0_0.index t (0 : Fin 2) = win0_2.index t (0 : Fin 2)
    ∧ win0_0.index t (1 : Fin 2) = 0
    ∧ win0_2.index t (1 : Fin 2) = 0
    ∧ win0_1.index t (0 : Fin 2) = 0
    ∧ win0_1.index t (1 : Fin 2) = 0 :=
  (by decide +kernel : ∀ t : Fin grid0.N, _)

/-- Every one of the 64 bands of rows is some grid point's. -/
theorem band_of_rows : ∀ q : Fin 64, ∃ t : Fin cfg0.N, win0_2.index t = ![q.val, 0] :=
  (by decide +kernel : ∀ q : Fin 64, ∃ t : Fin grid0.N, win0_2.index t = ![q.val, 0])

/-- What grid point `t` writes back is band `t` of the scaled matrix. -/
theorem written_band (c : Dev nD) (t : Fin cfg0.N) :
    (dats m 0 c).flushed 2 t
      = ((cfg0.win 2).blk t).view.read (Elt F)
          (scaled (m ((c : Thread nD τ).loc main_arg0)) (m ((c : Thread nD τ).loc main_arg1))) := by
  rw [Value.flushed2, band_value (iblk m c 0 t) (iblk m c 1 t)]
  obtain ⟨e0, e1, e2, e3, e4⟩ := band_positions t
  funext j
  have hj0 : (j 0).val < 2048 := (j 0).isLt
  have hj1 : (j 1).val < 1024 := (j 1).isLt
  show FloatOps.mulf (V m c main_arg0 (((cfg0.win 0).blk t).view.emb j))
        (V m c main_call0_v0 (((cfg0.win 1).blk t).view.emb (Value.ix2_1 j)))
      = FloatOps.mulf (m ((c : Thread nD τ).loc main_arg0) (((cfg0.win 2).blk t).view.emb j))
        (m ((c : Thread nD τ).loc main_arg1) (chan (((cfg0.win 2).blk t).view.emb j)))
  have hx : ((cfg0.win 0).blk t).view.emb j = ((cfg0.win 2).blk t).view.emb j := by
    funext a; apply Fin.ext
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 1024 + 1 * (j 1).val = win0_2.index t (1 : Fin 2) * 1024 + 1 * (j 1).val
      omega
  have hw : rowChan (((cfg0.win 1).blk t).view.emb (Value.ix2_1 j)) = chan (((cfg0.win 2).blk t).view.emb j) := by
    funext a; apply Fin.ext
    match a with
    | ⟨0, _⟩ =>
      show win0_1.index t (1 : Fin 2) * 1024 + 1 * (j 1).val = win0_2.index t (1 : Fin 2) * 1024 + 1 * (j 1).val
      omega
  rw [hx, weight_row_apply, hw, V_main_arg0]

/-! ## The bands tile the matrix -/

/-- An entry is in band `t` exactly when each coordinate is in the band's range on its axis. -/
theorem mem_band (t : Fin cfg0.N) (i : S131072x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- Every entry of the matrix lies in a band that is written back: row `r` is in band `r / 2048`. -/
theorem every_entry_written (i : S131072x1024.Idx) :
    ∃ t : Fin cfg0.N, (cfg0.win 2).flush t = true ∧ i ∈ ((cfg0.win 2).blk t).view.set := by
  have hi0 : (i 0).val < 131072 := (i 0).isLt
  have hi1 : (i 1).val < 1024 := (i 1).isLt
  obtain ⟨t, ht⟩ := band_of_rows ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_band]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- After the last band the result array is the scaled matrix. -/
theorem result_is_scaled (c : Dev nD) :
    (dats m 0 c).arrAt 2 cfg0.N
      = scaled (m ((c : Thread nD τ).loc main_arg0)) (m ((c : Thread nD τ).loc main_arg1)) :=
  (dats m 0 c).arrAt_eq_of_cover 2 _ (fun t _ => written_band m c t) every_entry_written

/-! ## The run -/

/-- Every weakly fair execution of the kernel ends with the result array at the scaled matrix of its two arguments, and the
    arguments unchanged. -/
theorem run : θ_run defs (onTc (τ := τ) (main (F := F))) ⟨m, fun _ => 0, ρ⟩ fun r => ∀ c : Dev nD,
      r.2.mem ((c : Thread nD τ).loc main_v0)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_is_scaled m c), (h c).2⟩) (Value.run_blocks m ρ)

end Cert.KernelIdeal.Scaled

end
-- ==== Proof.ReferenceScaled.lean ====
/-
  The reference computes `x * w` by laying the weight vector out as a single row, repeating that row down all 131072
  rows, and multiplying entry by entry. Read at an entry `i`, the repeated row holds the weight of `i`'s column, so the
  reference's result is the per-channel scaling of `x` by `w`.
-/
import proofs.«419298_j73469710566058_3_alg».proof.Proof.Gen.ReferenceIdeal.Read
import proofs.«419298_j73469710566058_3_alg».proof.Proof.ColumnScale

noncomputable section

namespace Cert.ReferenceIdeal.Scaled

open Cert.ReferenceIdeal Cert.ReferenceIdeal.Read Cert.ColumnScale Idealize.ShloMosaic Idealize.ShloMosaic.ValueIdx

variable {F : FTy → Type} [FloatOps F]

/-- Going from a matrix entry to the entry of the one-row layout under it, and from there to the weight vector, lands on
    the entry's channel. -/
theorem broadcast_index (i : S131072x1024.Idx) : idx_main_v0 (idx_main_v1 i) = chan i := by
  funext a
  match a with
  | ⟨0, _⟩ => rfl

/-- The reference's product, entry by entry, is the scaled matrix. -/
theorem reference_is_scaled (x : S131072x1024.Idx → Elt F .f32) (w : S1024.Idx → Elt F .f32) :
    val_main_v2 (F := F) x w = scaled x w := by
  funext i
  rw [val_main_v2_apply, val_main_v1_apply, val_main_v0_apply, broadcast_index, scaled_apply]

end Cert.ReferenceIdeal.Scaled

end
-- ==== Proof.lean ====
/-
  Scaling a 131072 x 1024 matrix channel by channel: `out[r, k] = x[r, k] * w[k]`, the product of `x` with the diagonal
  matrix of `w`.

  The kernel lays `w` out as one row, walks `x` in 64 bands of 2048 rows and multiplies each band entry by the row's entry
  in the same column (Proof/KernelScaled.lean). The reference repeats the row of weights down every row of the matrix and
  multiplies entry by entry (Proof/ReferenceScaled.lean). Both are the one function `Cert.ColumnScale.scaled` of the two
  argument arrays (Proof/ColumnScale.lean): each result entry is a single product of the same two argument entries on both
  sides, so no law of arithmetic is needed to join them and the finiteness of the inputs is never used. The idealization
  rewrote nothing in the kernel, so that conjunct has no content.
-/
import proofs.«419298_j73469710566058_3_alg».proof.Defs
import proofs.«419298_j73469710566058_3_alg».proof.Proof.Gen.Kernel
import proofs.«419298_j73469710566058_3_alg».proof.Proof.Gen.Kernel.Skeleton
import proofs.«419298_j73469710566058_3_alg».proof.Proof.Gen.Kernel.Launch
import proofs.«419298_j73469710566058_3_alg».proof.Proof.Gen.Kernel.Points
import proofs.«419298_j73469710566058_3_alg».proof.Proof.Gen.Kernel.Frame
import proofs.«419298_j73469710566058_3_alg».proof.Proof.Gen.KernelIdeal
import proofs.«419298_j73469710566058_3_alg».proof.Proof.Gen.KernelIdeal.Skeleton
import proofs.«419298_j73469710566058_3_alg».proof.Proof.Gen.KernelIdeal.Launch
import proofs.«419298_j73469710566058_3_alg».proof.Proof.Gen.KernelIdeal.Points
import proofs.«419298_j73469710566058_3_alg».proof.Proof.Gen.KernelIdeal.Frame
import proofs.«419298_j73469710566058_3_alg».proof.Proof.Gen.ReferenceIdeal
import proofs.«419298_j73469710566058_3_alg».proof.Proof.Gen.Pre_finite_inputs
import proofs.«419298_j73469710566058_3_alg».proof.Proof.Gen.KernelIdeal.Value
import proofs.«419298_j73469710566058_3_alg».proof.Proof.Gen.ReferenceIdeal.Run
import proofs.«419298_j73469710566058_3_alg».proof.Proof.Gen.ReferenceIdeal.Read
import proofs.«419298_j73469710566058_3_alg».proof.Proof.ColumnScale
import proofs.«419298_j73469710566058_3_alg».proof.Proof.KernelScaled
import proofs.«419298_j73469710566058_3_alg».proof.Proof.ReferenceScaled
import Idealize.ShloMosaic.Adequacy
import Idealize.ShloMosaic.Init

noncomputable section

namespace Cert.Proof

open Idealize.ShloMosaic Idealize.ShloMosaic.TcCoe Idealize.SL.Sem

/-- The kernel as printed runs to the end and leaves `x` and `w` as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs to the end and leaves `x` and `w` as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on `x` and `w`, the kernel and the reference both end with the matrix `x` scaled channel by
    channel by `w`: the kernel band by band, the reference through the repeated row of weights. -/
theorem algebraic : Cert.algebraic_KernelIdeal_ReferenceIdeal := by
  intro m ρ m' ρ' _ hagree
  refine ⟨fun c => Cert.ColumnScale.scaled (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Scaled.reference_is_scaled, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
